-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x4096 : Shape := ⟨2, ![16384, 4096]⟩
abbrev S8387998 : Shape := ⟨1, ![8387998]⟩
abbrev S4096 : Shape := ⟨1, ![4096]⟩
abbrev S_ : Shape := ⟨0, ![]⟩

class Facts : Prop where
  bcast_S_S16384x4096 : S_.BroadcastsInDim S16384x4096 (![] : Fin 0 → Fin S16384x4096.rank)
  reducesTo_S16384x4096_S_d0_1 : S16384x4096.ReducesTo [0, 1] S_
  h_S_ : 0 < S_.numel
  bcast_S_S8387998 : S_.BroadcastsInDim S8387998 (![] : Fin 0 → Fin S8387998.rank)
  reducesTo_S8387998_S_d0 : S8387998.ReducesTo [0] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S16384x4096 .f32) (main_arg1 : FVec F S8387998 .f32) (main_arg2 : IVec S8387998 32) (main_arg3 : IVec S8387998 32) (main_arg4 : FVec F S4096 .f32) : IVec S_ 1 :=
  let main_v0 : FVec F S16384x4096 .f32 := Host.absf main_arg0
  let main_cst : FVec F S_ .f32 := constant S_ .f32 0x7F800000#32
  let main_v1 : FVec F S16384x4096 .f32 := broadcastInDim S16384x4096 ![] bcast_S_S16384x4096 main_cst
  let main_v2 : IVec S16384x4096 1 := cmpf .olt main_v0 main_v1
  let main_c : IVec S_ 1 := constantI S_ 1 1#1
  let main_v3 : IVec S_ 1 := (fun x v => Host.reduce IntOp.andi x v reducesTo_S16384x4096_S_d0_1 h_S_) main_v2 main_c
  let main_v4 : FVec F S8387998 .f32 := Host.absf main_arg1
  let main_cst_0 : FVec F S_ .f32 := constant S_ .f32 0x7F800000#32
  let main_v5 : FVec F S8387998 .f32 := broadcastInDim S8387998 ![] bcast_S_S8387998 main_cst_0
  let main_v6 : IVec S8387998 1 := cmpf .olt main_v4 main_v5
  let main_c_1 : IVec S_ 1 := constantI S_ 1 1#1
  let main_v7 : IVec S_ 1 := (fun x v => Host.reduce IntOp.andi x v reducesTo_S8387998_S_d0 h_S_) main_v6 main_c_1
  let main_v8 : IVec S_ 1 := andi main_v3 main_v7
  let main_v9 : FVec F S4096 .f32 := Host.absf main_arg4
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S16384x4096 : Shape := ⟨2, ![16384, 4096]⟩
abbrev S8387998 : Shape := ⟨1, ![8387998]⟩
abbrev S4096 : Shape := ⟨1, ![4096]⟩
abbrev S_ : Shape := ⟨0, ![]⟩
abbrev S4096x4096 : Shape := ⟨2, ![4096, 4096]⟩
abbrev S8387998x1 : Shape := ⟨2, ![8387998, 1]⟩
abbrev S8387998x2 : Shape := ⟨2, ![8387998, 2]⟩
abbrev S1x4096 : Shape := ⟨2, ![1, 4096]⟩
abbrev S512x4096 : Shape := ⟨2, ![512, 4096]⟩
abbrev S4096x1024 : Shape := ⟨2, ![4096, 1024]⟩
abbrev S1x1024 : Shape := ⟨2, ![1, 1024]⟩
abbrev S512x1024 : Shape := ⟨2, ![512, 1024]⟩

abbrev nBuf : Space → Nat
  | .hbm => 30
  | .vmem => 8
  | .smem => 0
  | _ => 0

abbrev bufTy : (tb : Table) → Fin (tcTables nBuf tb) → BufTy
  | .hbm, ⟨0, _⟩ => ⟨S16384x4096, .f32⟩
  | .hbm, ⟨1, _⟩ => ⟨S8387998, .f32⟩
  | .hbm, ⟨2, _⟩ => ⟨S8387998, .i32⟩
  | .hbm, ⟨3, _⟩ => ⟨S8387998, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S8387998, .i32⟩
  | .hbm, ⟨9, _⟩ => ⟨S8387998, .i1⟩
  | .hbm, ⟨10, _⟩ => ⟨S_, .i32⟩
  | .hbm, ⟨11, _⟩ => ⟨S8387998, .i32⟩
  | .hbm, ⟨12, _⟩ => ⟨S8387998, .i32⟩
  | .hbm, ⟨13, _⟩ => ⟨S8387998, .i32⟩
  | .hbm, ⟨14, _⟩ => ⟨S_, .i32⟩
  | .hbm, ⟨15, _⟩ => ⟨S8387998, .i32⟩
  | .hbm, ⟨16, _⟩ => ⟨S8387998, .i1⟩
  | .hbm, ⟨17, _⟩ => ⟨S_, .i32⟩
  | .hbm, ⟨18, _⟩ => ⟨S8387998, .i32⟩
  | .hbm, ⟨19, _⟩ => ⟨S8387998, .i32⟩
  | .hbm, ⟨20, _⟩ => ⟨S8387998, .i32⟩
  | .hbm, ⟨21, _⟩ => ⟨S8387998x1, .i32⟩
  | .hbm, ⟨22, _⟩ => ⟨S8387998x1, .i32⟩
  | .hbm, ⟨23, _⟩ => ⟨S8387998x2, .i32⟩
  | .hbm, ⟨24, _⟩ => ⟨S4096x4096, .f32⟩
  | .hbm, ⟨25, _⟩ => ⟨S4096x4096, .f32⟩
  | .hbm, ⟨26, _⟩ => ⟨S16384x4096, .bf16⟩
  | .hbm, ⟨27, _⟩ => ⟨S4096x4096, .bf16⟩
  | .hbm, ⟨28, _⟩ => ⟨S1x4096, .f32⟩
  | .hbm, ⟨29, _⟩ => ⟨S16384x4096, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S4096x4096 : S_.BroadcastsInDim S4096x4096 (![] : Fin 0 → Fin S4096x4096.rank)
  bcast_S_S8387998 : S_.BroadcastsInDim S8387998 (![] : Fin 0 → Fin S8387998.rank)
  bcast_S8387998_S8387998x1_0 : S8387998.BroadcastsInDim S8387998x1 (![0] : Fin 1 → Fin S8387998x1.rank)
  concatenates_S8387998x1_S8387998x1_S8387998x2_d1 : Shape.Concatenates [S8387998x1, S8387998x1] S8387998x2 1
  transposes_S4096x4096_S4096x4096_1_0 : S4096x4096.Transposes [1, 0] S4096x4096
  bitsLt_bf16_f32 : FTy.bits .bf16 < FTy.bits .f32
  shapeCasts_S4096_S1x4096 : S4096.ShapeCasts S1x4096
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S4096x1024_S4096x1024_0_0 : ∀ a, (![0, 0] : Fin 2 → Nat) a + S4096x1024.size a ≤ S4096x1024.size a
  h_S4096x1024 : 0 < S4096x1024.numel
  shapeCasts_S4096x1024_S4096x1024 : S4096x1024.ShapeCasts S4096x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  scatter_S4096x4096_S8387998x2_S8387998_n_01_01_1_wf : ScatterDims.WF S4096x4096 S8387998x2 S8387998 [] [0, 1] [0, 1] 1
  dot_S512x4096_S4096x1024_S512x1024_1_0_0_1_n_n_wf : DotDims.WF S512x4096 S4096x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S16384x4096.size a
  hwx0_0 : ∀ i : grid0.Coords, EltTy.bits .bf16 = 32 ∨ (Rect.block (s := S16384x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x4096.size a
  hwx0_1 : ∀ i : grid0.Coords, EltTy.bits .bf16 = 32 ∨ (Rect.block (s := S4096x4096) S4096x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S16384x4096.size a
  hwx0_3 : ∀ i : grid0.Coords, EltTy.bits .f32 = 32 ∨ (Rect.block (s := S16384x4096) S512x1024.size (cc0_transform_3 i) (hinb0_3 i)).WholeWords (EltTy.packing .f32)

variable [Facts₀]

def scatter_S4096x4096_S8387998x2_S8387998_n_01_01_1 : ScatterDims S4096x4096 S8387998x2 S8387998 where
  updateWindowDims := []
  insertedWindowDims := [0, 1]
  scatterDimsToOperandDims := [0, 1]
  indexVectorDim := 1
  wf := scatter_S4096x4096_S8387998x2_S8387998_n_01_01_1_wf
def dot_S512x4096_S4096x1024_S512x1024_1_0_0_1_n_n : DotDims S512x4096 S4096x1024 S512x1024 where
  lhsContracting := [1]
  rhsContracting := [0]
  lhsNonContracting := [0]
  rhsNonContracting := [1]
  lhsBatch := []
  rhsBatch := []
  wf := dot_S512x4096_S4096x1024_S512x1024_1_0_0_1_n_n_wf

abbrev win0_0 : Pipeline.Window sig grid0 :=
  Pipeline.Window.ofSpec (Memref.whole main_v16) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v17) S4096x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x4096 : Shape := ⟨2, ![16384, 4096]⟩
abbrev S8387998 : Shape := ⟨1, ![8387998]⟩
abbrev S4096 : Shape := ⟨1, ![4096]⟩
abbrev S_ : Shape := ⟨0, ![]⟩
abbrev S4096x4096 : Shape := ⟨2, ![4096, 4096]⟩
abbrev S8387998x1 : Shape := ⟨2, ![8387998, 1]⟩
abbrev S8387998x2 : Shape := ⟨2, ![8387998, 2]⟩
abbrev S1x4096 : Shape := ⟨2, ![1, 4096]⟩

abbrev nBuf : Space → Nat
  | .hbm => 30
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S8387998, .f32⟩
  | .hbm, ⟨2, _⟩ => ⟨S8387998, .i32⟩
  | .hbm, ⟨3, _⟩ => ⟨S8387998, .i32⟩
  | .hbm, ⟨4, _⟩ => ⟨S4096, .f32⟩
  | .hbm, ⟨5, _⟩ => ⟨S_, .f32⟩
  | .hbm, ⟨6, _⟩ => ⟨S4096x4096, .f32⟩
  | .hbm, ⟨7, _⟩ => ⟨S_, .i32⟩
  | .hbm, ⟨8, _⟩ => ⟨S8387998, .i32⟩
  | .hbm, ⟨9, _⟩ => ⟨S8387998, .i1⟩
  | .hbm, ⟨10, _⟩ => ⟨S_, .i32⟩
  | .hbm, ⟨11, _⟩ => ⟨S8387998, .i32⟩
  | .hbm, ⟨12, _⟩ => ⟨S8387998, .i32⟩
  | .hbm, ⟨13, _⟩ => ⟨S8387998, .i32⟩
  | .hbm, ⟨14, _⟩ => ⟨S_, .i32⟩
  | .hbm, ⟨15, _⟩ => ⟨S8387998, .i32⟩
  | .hbm, ⟨16, _⟩ => ⟨S8387998, .i1⟩
  | .hbm, ⟨17, _⟩ => ⟨S_, .i32⟩
  | .hbm, ⟨18, _⟩ => ⟨S8387998, .i32⟩
  | .hbm, ⟨19, _⟩ => ⟨S8387998, .i32⟩
  | .hbm, ⟨20, _⟩ => ⟨S8387998, .i32⟩
  | .hbm, ⟨21, _⟩ => ⟨S8387998x1, .i32⟩
  | .hbm, ⟨22, _⟩ => ⟨S8387998x1, .i32⟩
  | .hbm, ⟨23, _⟩ => ⟨S8387998x2, .i32⟩
  | .hbm, ⟨24, _⟩ => ⟨S4096x4096, .f32⟩
  | .hbm, ⟨25, _⟩ => ⟨S4096x4096, .f32⟩
  | .hbm, ⟨26, _⟩ => ⟨S16384x4096, .f32⟩
  | .hbm, ⟨27, _⟩ => ⟨S1x4096, .f32⟩
  | .hbm, ⟨28, _⟩ => ⟨S16384x4096, .f32⟩
  | .hbm, ⟨29, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_c_1 : Ref sig .tc := ⟨.hbm, 14, rfl⟩
abbrev main_v6 : Ref sig .tc := ⟨.hbm, 15, rfl⟩
abbrev main_v7 : Ref sig .tc := ⟨.hbm, 16, rfl⟩
abbrev main_c_2 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  bcast_S_S8387998 : S_.BroadcastsInDim S8387998 (![] : Fin 0 → Fin S8387998.rank)
  bcast_S8387998_S8387998x1_0 : S8387998.BroadcastsInDim S8387998x1 (![0] : Fin 1 → Fin S8387998x1.rank)
  concatenates_S8387998x1_S8387998x1_S8387998x2_d1 : Shape.Concatenates [S8387998x1, S8387998x1] S8387998x2 1
  transposes_S4096x4096_S4096x4096_1_0 : S4096x4096.Transposes [1, 0] S4096x4096
  bcast_S4096_S1x4096_1 : S4096.BroadcastsInDim S1x4096 (![1] : Fin 1 → Fin S1x4096.rank)
  bcast_S1x4096_S16384x4096_0_1 : S1x4096.BroadcastsInDim S16384x4096 (![0, 1] : Fin 2 → Fin S16384x4096.rank)
  scatter_S4096x4096_S8387998x2_S8387998_n_01_01_1_wf : ScatterDims.WF S4096x4096 S8387998x2 S8387998 [] [0, 1] [0, 1] 1
  dot_S16384x4096_S4096x4096_S16384x4096_1_0_0_1_n_n_wf : DotDims.WF S16384x4096 S4096x4096 S16384x4096 [1] [0] [0] [1] [] []

variable [Facts₀]

def scatter_S4096x4096_S8387998x2_S8387998_n_01_01_1 : ScatterDims S4096x4096 S8387998x2 S8387998 where
  updateWindowDims := []
  insertedWindowDims := [0, 1]
  scatterDimsToOperandDims := [0, 1]
  indexVectorDim := 1
  wf := scatter_S4096x4096_S8387998x2_S8387998_n_01_01_1_wf
def dot_S16384x4096_S4096x4096_S16384x4096_1_0_0_1_n_n : DotDims S16384x4096 S4096x4096 S16384x4096 where
  lhsContracting := [1]
  rhsContracting := [0]
  lhsNonContracting := [0]
  rhsNonContracting := [1]
  lhsBatch := []
  rhsBatch := []
  wf := dot_S16384x4096_S4096x4096_S16384x4096_1_0_0_1_n_n_wf

class Facts : Prop extends Facts₀ where

variable [Facts]
-- ==== Proof.LibRealFactor.lean ====
/-
  Two general facts about the extended reals as the exact instance computes with them.

  1. A real factor distributes over the sum of ANY extended real and a real: r * (w + t) = r * w + r * t.  (Over the
     extended reals multiplication does not distribute over addition in general; here the one possibly infinite
     summand w keeps its sign under the real factor r, or is annihilated by r = 0, and the real summand cannot cancel
     it.)  Termwise under a finite sum this splits sum_k x_k * (w_k + a_k) into sum_k x_k * w_k + sum_k x_k * a_k when
     the x_k and a_k are real.
  2. A plain matrix product — an N x D matrix times a D x H matrix, the first one's columns contracted with the second
     one's rows — read at entry (i, j) is the sum over k of l(i, k) * r(k, j), both for the matrix unit's product
     accumulated into the zero matrix and for the host's product.
-/
import Idealize.ShloMosaic.PureOps.Ideal
import Idealize.ShloMosaic.PureOps.Ideal.Laws
import Idealize.ShloMosaic.Lib.ValueIdx

noncomputable section

namespace Cert.Fold

open Idealize.ShloMosaic Idealize.ShloMosaic.ValueIdx

/-! ## The law -/

/-- A real factor distributes over the sum of an extended real and a real. -/
theorem coe_mul_add_coe (r t : ℝ) (w : EReal) :
    (r : EReal) * (w + (t : EReal)) = (r : EReal) * w + (r : EReal) * (t : EReal) := by
  induction w using EReal.rec with
  | bot =>
    rw [EReal.bot_add]
    rcases lt_trichotomy r 0 with h | h | h
    · rw [EReal.coe_mul_bot_of_neg h, ← EReal.coe_mul, EReal.top_add_coe]
    · subst h; simp
    · rw [EReal.coe_mul_bot_of_pos h, EReal.bot_add]
  | coe w =>
    rw [← EReal.coe_add, ← EReal.coe_mul, ← EReal.coe_mul, ← EReal.coe_mul, ← EReal.coe_add, mul_add]
  | top =>
    rw [EReal.top_add_coe]
    rcases lt_trichotomy r 0 with h | h | h
    · rw [EReal.coe_mul_top_of_neg h, EReal.bot_add]
    · subst h; simp
    · rw [EReal.coe_mul_top_of_pos h, ← EReal.coe_mul, EReal.top_add_coe]

/-- Termwise: a sum of real multiples of `w k + a k`, the `a k` real, is the sum of the multiples of the `w k`
    plus the sum of the multiples of the `a k`. -/
theorem sum_mul_add {ι : Type*} (s : Finset ι) (x w a : ι → EReal)
    (hx : ∀ k, ∃ r : ℝ, x k = (r : EReal)) (ha : ∀ k, ∃ t : ℝ, a k = (t : EReal)) :
    ∑ k ∈ s, x k * (w k + a k) = ∑ k ∈ s, x k * w k + ∑ k ∈ s, x k * a k := by
  rw [← Finset.sum_add_distrib]
  refine Finset.sum_congr rfl fun k _ => ?_
  obtain ⟨r, hr⟩ := hx k
  obtain ⟨t, ht⟩ := ha k
  rw [hr, ht]
  exact coe_mul_add_coe r t (w k)

/-! ## A matrix product at an entry -/

/-- For a plain product of an N x D matrix with a D x H matrix (the first one's columns contracted with the second
    one's rows) the sum over the contraction index at entry (i, j) is the sum over k of l(i, k) r(k, j). -/
theorem contr_sum_rows {N D H : Nat} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (l : (⟨2, ![N, D]⟩ : Shape).Idx → EReal) (r : (⟨2, ![D, H]⟩ : Shape).Idx → EReal) (i : Fin N) (j : Fin H) :
    ∑ k : d.contr.Idx, l (d.lhsIdx (ix2 i j) k) * r (d.rhsIdx (ix2 i j) k) = ∑ k : Fin D, l (ix2 i k) * r (ix2 k j) := by
  obtain ⟨lc, rc, ln, rn, lb, rb, wf⟩ := d
  simp only at h1 h2 h3 h4 h5 h6
  subst h1 h2 h3 h4 h5 h6
  rw [← Equiv.sum_comp (contrEquiv1 (⟨[1], [0], [0], [1], [], [], wf⟩ : DotDims ⟨2, ![N, D]⟩ ⟨2, ![D, H]⟩ ⟨2, ![N, H]⟩) D rfl rfl).symm]
  refine Finset.sum_congr rfl fun k _ => ?_
  congr 1
  · refine congrArg l ?_
    funext a
    match a with
    | ⟨0, _⟩ => exact Fin.ext rfl
    | ⟨1, _⟩ => exact Fin.ext rfl
  · refine congrArg r ?_
    funext a
    match a with
    | ⟨0, _⟩ => exact Fin.ext rfl
    | ⟨1, _⟩ => exact Fin.ext rfl

/-- The matrix unit's product accumulated into the zero matrix, at entry (i, j). -/
theorem matmul_zero_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    matmul d prec l r (constant ⟨2, ![N, H]⟩ .f32 0x00000000#32) (ix2 i j) = ∑ k : Fin D, l (ix2 i k) * r (ix2 k j) := by
  simp only [matmul]
  rw [Ideal.matmul_constant_zero_apply]
  exact contr_sum_rows d h1 h2 h3 h4 h5 h6 l r i j

/-- The host's product, at entry (i, j). -/
theorem dotGeneral_rows {N D H : Nat} {φ₁ φ₂ : FTy} (d : DotDims ⟨2, ![N, D]⟩ ⟨2, ![D, H]⟩ ⟨2, ![N, H]⟩)
    (h1 : d.lhsContracting = [1]) (h2 : d.rhsContracting = [0]) (h3 : d.lhsNonContracting = [0])
    (h4 : d.rhsNonContracting = [1]) (h5 : d.lhsBatch = []) (h6 : d.rhsBatch = [])
    (prec : Option ContractPrecision) (l : FVec Ideal ⟨2, ![N, D]⟩ φ₁) (r : FVec Ideal ⟨2, ![D, H]⟩ φ₂)
    (i : Fin N) (j : Fin H) :
    Host.dotGeneral d prec l r (ix2 i j) = ∑ k : Fin D, l (ix2 i k) * r (ix2 k j) := by
  unfold Host.dotGeneral
  rw [Ideal.dotGeneral_apply]
  exact contr_sum_rows d h1 h2 h3 h4 h5 h6 l r i j

end Cert.Fold

end
-- ==== Proof.Spec.lean ====
/-
  The sparse linear layer as one function of its dense pieces.

  Both programs first scatter the CSR triple (values, rows, cols) into a dense 4096 x 4096 weight W and transpose it;
  they differ only in how the product with the input is taken.  Given the transposed weight Wt (input features by
  output features), the input X (tokens by input features) and the bias b, entry (r, c) of the layer's result is

      (sum over k of X[r, k] * Wt[k, c]) + b[c].

  Addition of extended reals is commutative and associative, so this sum is one value whatever its terms: no entry
  needs to be finite for the two programs to agree.
-/
import Idealize.ShloMosaic.PureOps.Ideal
import Idealize.ShloMosaic.Lib.ValueIdx

noncomputable section

namespace Cert.SparseLinear

open Idealize.ShloMosaic Idealize.ShloMosaic.ValueIdx

/-- Entry (r, c) of X · Wt + b: the row r of X against the column c of Wt, plus the bias of output feature c. -/
def entry (X : (⟨2, ![16384, 4096]⟩ : Shape).Idx → EReal) (Wt : (⟨2, ![4096, 4096]⟩ : Shape).Idx → EReal)
    (b : (⟨1, ![4096]⟩ : Shape).Idx → EReal) (r : Fin 16384) (c : Fin 4096) : EReal :=
  (∑ k : Fin 4096, X (ix2 r k) * Wt (ix2 k c)) + b (ix1 c)

/-- The layer's whole result, index by index. -/
def linear (X : (⟨2, ![16384, 4096]⟩ : Shape).Idx → EReal) (Wt : (⟨2, ![4096, 4096]⟩ : Shape).Idx → EReal)
    (b : (⟨1, ![4096]⟩ : Shape).Idx → EReal) : (⟨2, ![16384, 4096]⟩ : Shape).Idx → EReal :=
  fun i => entry X Wt b (i 0) (i 1)

theorem linear_apply (X : (⟨2, ![16384, 4096]⟩ : Shape).Idx → EReal) (Wt : (⟨2, ![4096, 4096]⟩ : Shape).Idx → EReal)
    (b : (⟨1, ![4096]⟩ : Shape).Idx → EReal) (r : Fin 16384) (c : Fin 4096) :
    linear X Wt b (ix2 r c) = (∑ k : Fin 4096, X (ix2 r k) * Wt (ix2 k c)) + b (ix1 c) := rfl

end Cert.SparseLinear

end
-- ==== Proof.Tile.lean ====
/-
  One grid point's tile of the result.

  At a grid point the body loads a 512 x 4096 block of the input, a 4096 x 1024 block of the transposed weight and a
  1 x 1024 block of the bias, and stores  (input block) · (weight block) + (bias block, repeated down the rows).
  Entry (p, q) of what it stores is therefore

      (sum over k of x0[p, k] * x1[k, q]) + x2[0, q].

  If the three blocks are the pieces of X, Wt and the bias row B that start at row  bi * 512  of X and at column
  bj * 1024  of Wt and of B, that entry is entry (bi * 512 + p, bj * 1024 + q) of the whole layer  X · Wt + B.
-/
import proofs.«144302_j8856222564675_1_alg».proof.Proof.Gen.KernelIdeal.Skeleton
import proofs.«144302_j8856222564675_1_alg».proof.Proof.LibRealFactor
import proofs.«144302_j8856222564675_1_alg».proof.Proof.Spec
import Idealize.ShloMosaic.Lib.Pipeline.Value
import Idealize.ShloMosaic.Lib.ValueIdx

noncomputable section

namespace Cert.SparseLinear

open Idealize.ShloMosaic Idealize.ShloMosaic.ValueIdx Cert.KernelIdeal Cert.KernelIdeal.Gen

/-- Entry (p, q) of the tile the body stores: row p of the input block against column q of the weight block, plus
    the bias block's entry q. -/
theorem tile_entry (x0 : Vec Ideal S512x4096 .bf16) (x1 : Vec Ideal S4096x1024 .bf16) (x2 : Vec Ideal S1x1024 .f32)
    (p : Fin 512) (q : Fin 1024) :
    k0_pay1 (F := Ideal) x0 x1 x2 (ix2 p q)
      = (∑ k : Fin 4096, x0 (ix2 p k) * x1 (ix2 k q)) + x2 (ix2 (0 : Fin 1) q) := by
  unfold k0_pay1
  show (matmul dot_S512x4096_S4096x1024_S512x1024_1_0_0_1_n_n none
          (shapeCast S512x4096 x0 shapeCasts_S512x4096_S512x4096) (shapeCast S4096x1024 x1 shapeCasts_S4096x1024_S4096x1024)
          (constant (F := Ideal) S512x1024 .f32 0x00000000#32)) (ix2 p q)
        + (broadcastTo S512x1024 (shapeCast S1x1024 x2 shapeCasts_S1x1024_S1x1024) broadcasts_S1x1024_S512x1024) (ix2 p q) = _
  rw [shapeCast_self, shapeCast_self, shapeCast_self]
  rw [Cert.Fold.matmul_zero_rows dot_S512x4096_S4096x1024_S512x1024_1_0_0_1_n_n rfl rfl rfl rfl rfl rfl none x0 x1 p q]
  rw [broadcastTo_apply x2 broadcasts_S1x1024_S512x1024 (ix2 p q) (ix2 (0 : Fin 1) q) (fun a => match a with
    | ⟨0, _⟩ => by show 0 = if (1 : Nat) = 1 then 0 else _; rw [if_pos rfl]
    | ⟨1, _⟩ => by show q.val = if (1024 : Nat) = 1 then 0 else q.val; rw [if_neg (by decide)])]

/-- The tile is the layer's block: when the loaded blocks are X, Wt and the bias row B read at the offsets of block
    (bi, bj), the stored tile at j is the layer at the index i that j has inside the whole array. -/
theorem tile_of_blocks (x0 : Vec Ideal S512x4096 .bf16) (x1 : Vec Ideal S4096x1024 .bf16) (x2 : Vec Ideal S1x1024 .f32)
    (X : (⟨2, ![16384, 4096]⟩ : Shape).Idx → EReal) (Wt : (⟨2, ![4096, 4096]⟩ : Shape).Idx → EReal)
    (B : (⟨2, ![1, 4096]⟩ : Shape).Idx → EReal) (bi bj : Nat)
    (E0 : S512x4096.Idx → (⟨2, ![16384, 4096]⟩ : Shape).Idx) (h0 : ∀ y, x0 y = X (E0 y))
    (h00 : ∀ y, (E0 y 0).val = bi * 512 + (y 0).val) (h01 : ∀ y, (E0 y 1).val = (y 1).val)
    (E1 : S4096x1024.Idx → (⟨2, ![4096, 4096]⟩ : Shape).Idx) (h1 : ∀ y, x1 y = Wt (E1 y))
    (h10 : ∀ y, (E1 y 0).val = (y 0).val) (h11 : ∀ y, (E1 y 1).val = bj * 1024 + (y 1).val)
    (E2 : S1x1024.Idx → (⟨2, ![1, 4096]⟩ : Shape).Idx) (h2 : ∀ y, x2 y = B (E2 y))
    (h21 : ∀ y, (E2 y 1).val = bj * 1024 + (y 1).val)
    (j : S512x1024.Idx) (i : (⟨2, ![16384, 4096]⟩ : Shape).Idx)
    (hi0 : (i 0).val = bi * 512 + (j 0).val) (hi1 : (i 1).val = bj * 1024 + (j 1).val) :
    k0_pay1 (F := Ideal) x0 x1 x2 j = linear X Wt (fun d => B (ix2 (0 : Fin 1) (d 0))) i := by
  obtain ⟨p, q, rfl⟩ : ∃ (p : Fin 512) (q : Fin 1024), j = ix2 p q := ⟨j 0, j 1, eq_ix2 j⟩
  obtain ⟨r, s, rfl⟩ : ∃ (r : Fin 16384) (s : Fin 4096), i = ix2 r s := ⟨i 0, i 1, eq_ix2 i⟩
  have hr : r.val = bi * 512 + p.val := hi0
  have hs : s.val = bj * 1024 + q.val := hi1
  rw [tile_entry, linear_apply]
  congr 1
  · refine Finset.sum_congr rfl fun k _ => ?_
    rw [h0, h1]
    congr 1
    · refine congrArg X (funext fun a => Fin.ext ?_)
      match a with
      | ⟨0, _⟩ => exact (h00 (ix2 p k)).trans hr.symm
      | ⟨1, _⟩ => exact h01 (ix2 p k)
    · refine congrArg Wt (funext fun a => Fin.ext ?_)
      match a with
      | ⟨0, _⟩ => exact h10 (ix2 k q)
      | ⟨1, _⟩ => exact (h11 (ix2 k q)).trans hs.symm
  · rw [h2]
    refine congrArg B (funext fun a => Fin.ext ?_)
    match a with
    | ⟨0, _⟩ => exact Nat.lt_one_iff.mp (E2 (ix2 (0 : Fin 1) q) 0).isLt
    | ⟨1, _⟩ => exact (h21 (ix2 (0 : Fin 1) q)).trans hs.symm

end Cert.SparseLinear

end
-- ==== Proof.Blocks.lean ====
/-
  From tiles to the whole result array.

  The grid has 4 x 32 points; point (j, i) reads rows [512 i, 512 i + 512) of X, columns [1024 j, 1024 j + 1024) of the
  transposed weight and of the bias row, and writes the 512 x 1024 tile of the result at block (i, j).  Each tile is
  that block of the layer of the three arrays the region reads (the tile lemma), and the 32 x 4 blocks tile the whole
  16384 x 4096 result, so after the run the result array is the layer, everywhere.
-/
import proofs.«144302_j8856222564675_1_alg».proof.Proof.Gen.KernelIdeal.Value
import proofs.«144302_j8856222564675_1_alg».proof.Proof.Tile
import Idealize.ShloMosaic.Lib.Pipeline.Value
import Idealize.ShloMosaic.Lib.ValueIdx

set_option maxRecDepth 16384

noncomputable section

namespace Cert.SparseLinear

open Idealize.ShloMosaic Idealize.ShloMosaic.TcCoe Idealize.SL.Sem Idealize.ShloMosaic.ValueIdx
open Cert.KernelIdeal Cert.KernelIdeal.Gen
open Idealize.ShloMosaic.Pipeline (Dat)

variable (m : (ℓ : Loc nD τ sig) → Buf (Elt Ideal) ℓ)

theorem origin2 : (![0, 0] : Fin 2 → Nat) = fun _ => 0 := funext fun a => by fin_cases a <;> rfl

/-- The layer of the three arrays the region reads: X, the transposed weight, and the bias as a row. -/
abbrev staged (c : Dev nD) : S16384x4096.Idx → EReal :=
  linear (V m c main_v16) (V m c main_v17) (fun d => (V m c main_v18 : S1x4096.Idx → EReal) (ix2 (0 : Fin 1) (d 0)))

/-- The block indices, decided over the 128 grid points: the input's row block is the result's, the weight's and the
    bias's column block is the result's, the other block indices are 0, and the result's stay in 32 x 4. -/
theorem block_indices : ∀ t : Fin cfg0.N,
    win0_0.index t (0 : Fin 2) = win0_3.index t (0 : Fin 2)
    ∧ win0_0.index t (1 : Fin 2) = 0
    ∧ win0_1.index t (0 : Fin 2) = 0
    ∧ win0_1.index t (1 : Fin 2) = win0_3.index t (1 : Fin 2)
    ∧ win0_2.index t (0 : Fin 2) = 0
    ∧ win0_2.index t (1 : Fin 2) = win0_3.index t (1 : Fin 2)
    ∧ win0_3.index t (0 : Fin 2) ≤ 31
    ∧ win0_3.index t (1 : Fin 2) ≤ 3 :=
  (by decide +kernel : ∀ t : Fin grid0.N, _)

/-- Every block of the 32 x 4 result is some grid point's. -/
theorem block_onto : ∀ (q0 : Fin 32) (q1 : Fin 4), ∃ t : Fin cfg0.N, win0_3.index t = ![q0.val, q1.val] :=
  (by decide +kernel : ∀ (q0 : Fin 32) (q1 : Fin 4), ∃ t : Fin grid0.N, win0_3.index t = ![q0.val, q1.val])

/-! Reading a window's block off ANY contents of the buffers is reading the window's array through the block's
    embedding.  Stated over arbitrary contents A, so that what the arrays hold plays no part in it. -/

theorem read_block0 (c : Dev nD) (A : (b : Ref sig .tc) → Buf (Elt Ideal) ((c : Thread nD τ).loc b)) (t : Fin cfg0.N)
    (y : S512x4096.Idx) :
    (((cfg0.win 0).blk t).view.read (Elt Ideal) (A (Pipeline.arrRef spec0 0)) : S512x4096.Idx → EReal) y
      = (A main_v16 : S16384x4096.Idx → EReal) (((cfg0.win 0).blk t).view.emb y) := rfl

theorem read_block1 (c : Dev nD) (A : (b : Ref sig .tc) → Buf (Elt Ideal) ((c : Thread nD τ).loc b)) (t : Fin cfg0.N)
    (y : S4096x1024.Idx) :
    (((cfg0.win 1).blk t).view.read (Elt Ideal) (A (Pipeline.arrRef spec0 1)) : S4096x1024.Idx → EReal) y
      = (A main_v17 : S4096x4096.Idx → EReal) (((cfg0.win 1).blk t).view.emb y) := rfl

theorem read_block2 (c : Dev nD) (A : (b : Ref sig .tc) → Buf (Elt Ideal) ((c : Thread nD τ).loc b)) (t : Fin cfg0.N)
    (y : S1x1024.Idx) :
    (((cfg0.win 2).blk t).view.read (Elt Ideal) (A (Pipeline.arrRef spec0 2)) : S1x1024.Idx → EReal) y
      = (A main_v18 : S1x4096.Idx → EReal) (((cfg0.win 2).blk t).view.emb y) := rfl

/-- So each input window's block at a point is its array, as the region finds it, read through the embedding. -/
theorem iblk_read0 (c : Dev nD) (t : Fin cfg0.N) (y : S512x4096.Idx) :
    (iblk m c 0 t : S512x4096.Idx → EReal) y = (V m c main_v16 : S16384x4096.Idx → EReal) (((cfg0.win 0).blk t).view.emb y) :=
  read_block0 c (V m c) t y

theorem iblk_read1 (c : Dev nD) (t : Fin cfg0.N) (y : S4096x1024.Idx) :
    (iblk m c 1 t : S4096x1024.Idx → EReal) y = (V m c main_v17 : S4096x4096.Idx → EReal) (((cfg0.win 1).blk t).view.emb y) :=
  read_block1 c (V m c) t y

theorem iblk_read2 (c : Dev nD) (t : Fin cfg0.N) (y : S1x1024.Idx) :
    (iblk m c 2 t : S1x1024.Idx → EReal) y = (V m c main_v18 : S1x4096.Idx → EReal) (((cfg0.win 2).blk t).view.emb y) :=
  read_block2 c (V m c) t y

/-- What grid point t writes back is block t of the layer of the arrays the region reads. -/
theorem flushed_eq (c : Dev nD) (t : Fin cfg0.N) :
    (dats m 0 c).flushed 3 t = ((cfg0.win 3).blk t).view.read (Elt Ideal) (staged m c) := by
  rw [Cert.KernelIdeal.Value.flushed3]
  unfold out0_3
  rw [View.canon_unit_zero origin2]
  simp only [View.ld_unit_zero (S := S512x4096) origin2, View.ld_unit_zero (S := S4096x1024) origin2,
    View.ld_unit_zero (S := S1x1024) origin2]
  obtain ⟨f0, f1, f2, f3, f4, f5, -, -⟩ := block_indices t
  funext j
  show k0_pay1 (F := Ideal) (iblk m c 0 t) (iblk m c 1 t) (iblk m c 2 t) j = staged m c (((cfg0.win 3).blk t).view.emb j)
  refine tile_of_blocks (iblk m c 0 t) (iblk m c 1 t) (iblk m c 2 t) (V m c main_v16) (V m c main_v17) (V m c main_v18)
    (win0_3.index t (0 : Fin 2)) (win0_3.index t (1 : Fin 2))
    (fun y => ((cfg0.win 0).blk t).view.emb y) (fun y => iblk_read0 m c t y) (fun y => ?_) (fun y => ?_)
    (fun y => ((cfg0.win 1).blk t).view.emb y) (fun y => iblk_read1 m c t y) (fun y => ?_) (fun y => ?_)
    (fun y => ((cfg0.win 2).blk t).view.emb y) (fun y => iblk_read2 m c t y) (fun y => ?_)
    j (((cfg0.win 3).blk t).view.emb j) ?_ ?_
  · show win0_0.index t (0 : Fin 2) * 512 + 1 * (y 0).val = win0_3.index t (0 : Fin 2) * 512 + (y 0).val; omega
  · show win0_0.index t (1 : Fin 2) * 4096 + 1 * (y 1).val = (y 1).val; omega
  · show win0_1.index t (0 : Fin 2) * 4096 + 1 * (y 0).val = (y 0).val; omega
  · show win0_1.index t (1 : Fin 2) * 1024 + 1 * (y 1).val = win0_3.index t (1 : Fin 2) * 1024 + (y 1).val; omega
  · show win0_2.index t (1 : Fin 2) * 1024 + 1 * (y 1).val = win0_3.index t (1 : Fin 2) * 1024 + (y 1).val; omega
  · show win0_3.index t (0 : Fin 2) * 512 + 1 * (j 0).val = win0_3.index t (0 : Fin 2) * 512 + (j 0).val; omega
  · show win0_3.index t (1 : Fin 2) * 1024 + 1 * (j 1).val = win0_3.index t (1 : Fin 2) * 1024 + (j 1).val; omega

/-- An index of the result array is in point t's block iff each coordinate is in the block's range on its axis. -/
theorem mem_block (t : Fin cfg0.N) (i : S16384x4096.Idx) :
    i ∈ ((cfg0.win 3).blk t).view.set ↔ ∀ a : Fin 2, win0_3.index t a * S512x1024.size a ≤ (i a).val
      ∧ (i a).val < win0_3.index t a * S512x1024.size a + S512x1024.size a := by
  show i ∈ ((View.whole main_v19).slice (win0_3.rect t)).set ↔ _
  rw [View.set_slice_whole, Rect.mem_set_unit]
  exact Iff.rfl

/-- Every index of the result array is in some point's block: the point of block (row / 512, column / 1024). -/
theorem covered (i : S16384x4096.Idx) :
    ∃ t : Fin cfg0.N, (cfg0.win 3).flush t = true ∧ i ∈ ((cfg0.win 3).blk t).view.set := by
  have hi0 : (i 0).val < 16384 := (i 0).isLt
  have hi1 : (i 1).val < 4096 := (i 1).isLt
  obtain ⟨t, ht⟩ := block_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_block]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1024 ≤ (i 1).val ∧ (i 1).val < win0_3.index t (1 : Fin 2) * 1024 + 1024
    omega

/-- After the run the result array is the layer of the arrays the region reads. -/
theorem final_staged (c : Dev nD) : (dats m 0 c).arrAt 3 cfg0.N = staged m c :=
  (dats m 0 c).arrAt_eq_of_cover 3 (staged m c) (fun t _ => flushed_eq m c t) covered

end Cert.SparseLinear

end
-- ==== Proof.Staged.lean ====
/-
  The three arrays the kernel's region reads, as functions of the program's arguments.

  Before the region the host part of the kernel program
    * changes the input's float format, which on extended reals is the identity, so the region reads X itself;
    * scatters the CSR triple into the dense weight, transposes it and changes its format: the same scatter and the
      same transpose the reference program performs, so the region reads the reference's own transposed weight;
    * reshapes the bias vector into a single row, so the region reads  B[0, c] = bias[c].
-/
import proofs.«144302_j8856222564675_1_alg».proof.Proof.Gen.KernelIdeal.Frame
import proofs.«144302_j8856222564675_1_alg».proof.Proof.Gen.ReferenceIdeal.Read
import Idealize.ShloMosaic.Lib.StableHlo.Run
import Idealize.ShloMosaic.Lib.Pipeline.Value
import Idealize.ShloMosaic.Lib.ValueIdx

noncomputable section

namespace Cert.SparseLinear

open Idealize.ShloMosaic Idealize.ShloMosaic.TcCoe Idealize.SL.Sem Idealize.ShloMosaic.ValueIdx
open Cert.KernelIdeal Cert.KernelIdeal.Gen

/-- The transposed dense weight as the kernel program's host part builds it from the CSR triple: a zero matrix, the
    (row, column) pairs with each negative entry wrapped by 4096, the values scattered at those pairs (a later value
    replacing an earlier one at the same pair), and the transpose. -/
def weightK (x1 : (⟨S8387998, .f32⟩ : BufTy).Contents (Elt Ideal)) (x2 x3 : (⟨S8387998, .i32⟩ : BufTy).Contents (Elt Ideal)) :
    (⟨S4096x4096, .f32⟩ : BufTy).Contents (Elt Ideal) :=
  transpose S4096x4096 [1, 0] (Host.scatter scatter_S4096x4096_S8387998x2_S8387998_n_01_01_1 (fun _ b => b)
    (broadcastInDim S4096x4096 ![] bcast_S_S4096x4096 (constant (F := Ideal) S_ .f32 0x00000000#32))
    (concatenate S8387998x2 1
      [⟨S8387998x1, (broadcastInDim S8387998x1 ![0] bcast_S8387998_S8387998x1_0
          (select (cmpi .slt x2 (broadcastInDim S8387998 ![] bcast_S_S8387998 (constantI S_ 32 0#32)))
            (addi x2 (broadcastInDim S8387998 ![] bcast_S_S8387998 (constantI S_ 32 4096#32))) x2))⟩,
       ⟨S8387998x1, (broadcastInDim S8387998x1 ![0] bcast_S8387998_S8387998x1_0
          (select (cmpi .slt x3 (broadcastInDim S8387998 ![] bcast_S_S8387998 (constantI S_ 32 0#32)))
            (addi x3 (broadcastInDim S8387998 ![] bcast_S_S8387998 (constantI S_ 32 4096#32))) x3))⟩]
      concatenates_S8387998x1_S8387998x1_S8387998x2_d1)
    x1) transposes_S4096x4096_S4096x4096_1_0

/-- It is the reference program's transposed weight: the two programs spell the same operations over the same
    shapes, and differ only in which program's stated shape facts the operations cite. -/
theorem weightK_eq (x1 : (⟨S8387998, .f32⟩ : BufTy).Contents (Elt Ideal)) (x2 x3 : (⟨S8387998, .i32⟩ : BufTy).Contents (Elt Ideal)) :
    weightK x1 x2 x3 = Cert.ReferenceIdeal.Read.val_main_v15 (F := Ideal) x1 x2 x3 := by
  unfold weightK Cert.ReferenceIdeal.Read.val_main_v15 Cert.ReferenceIdeal.Read.val_main_v14
    Cert.ReferenceIdeal.Read.val_main_v13 Cert.ReferenceIdeal.Read.val_main_v12 Cert.ReferenceIdeal.Read.val_main_v11
    Cert.ReferenceIdeal.Read.val_main_v10 Cert.ReferenceIdeal.Read.val_main_v9 Cert.ReferenceIdeal.Read.val_main_v8
    Cert.ReferenceIdeal.Read.val_main_v7 Cert.ReferenceIdeal.Read.val_main_v6 Cert.ReferenceIdeal.Read.val_main_v5
    Cert.ReferenceIdeal.Read.val_main_v4 Cert.ReferenceIdeal.Read.val_main_v3 Cert.ReferenceIdeal.Read.val_main_v2
    Cert.ReferenceIdeal.Read.val_main_v1 Cert.ReferenceIdeal.Read.val_main_v0 Cert.ReferenceIdeal.Read.val_main_cst
    Cert.ReferenceIdeal.Read.val_main_c Cert.ReferenceIdeal.Read.val_main_c_0 Cert.ReferenceIdeal.Read.val_main_c_1
    Cert.ReferenceIdeal.Read.val_main_c_2
  rfl

variable (m : (ℓ : Loc nD τ sig) → Buf (Elt Ideal) ℓ)

set_option maxHeartbeats 2000000 in
/-- The region reads the input X as launched: narrowing its float format changes no extended real. -/
theorem staged_input (c : Dev nD) :
    @Eq (S16384x4096.Idx → EReal) (V m c main_v16) (m ((c : Thread nD τ).loc main_arg0)) := by
  have e : @Eq (S16384x4096.Idx → EReal) (V m c main_v16)
      (truncf (F := Ideal) (s := S16384x4096) (φ := .f32) .bf16 (m ((c : Thread nD τ).loc main_arg0)) bitsLt_bf16_f32) := by
    dsimp only [V, hostOps0]; after_results <;> rfl
  exact e.trans (funext fun i => truncf_apply _ _ i)

set_option maxHeartbeats 2000000 in
/-- The region reads the transposed dense weight the host part built (`weightK`), its format change the identity. -/
theorem staged_weightK (c : Dev nD) :
    @Eq (S4096x4096.Idx → EReal) (V m c main_v17)
      (weightK (m ((c : Thread nD τ).loc main_arg1)) (m ((c : Thread nD τ).loc main_arg2)) (m ((c : Thread nD τ).loc main_arg3))) := by
  have e : @Eq (S4096x4096.Idx → EReal) (V m c main_v17)
      (truncf (F := Ideal) (s := S4096x4096) (φ := .f32) .bf16
        (weightK (m ((c : Thread nD τ).loc main_arg1)) (m ((c : Thread nD τ).loc main_arg2)) (m ((c : Thread nD τ).loc main_arg3)))
        bitsLt_bf16_f32) := by
    dsimp only [V, hostOps0]; after_results <;> rfl
  exact e.trans (funext fun i => truncf_apply _ _ i)

/-- So the region reads the reference program's own transposed weight. -/
theorem staged_weight (c : Dev nD) :
    @Eq (S4096x4096.Idx → EReal) (V m c main_v17)
      (Cert.ReferenceIdeal.Read.val_main_v15 (F := Ideal) (m ((c : Thread nD τ).loc main_arg1))
        (m ((c : Thread nD τ).loc main_arg2)) (m ((c : Thread nD τ).loc main_arg3))) :=
  (staged_weightK m c).trans (weightK_eq _ _ _)

set_option maxHeartbeats 2000000 in
/-- The region reads the bias as one row: B[0, c] = bias[c]. -/
theorem staged_bias (c : Dev nD) (s : Fin 4096) :
    (V m c main_v18 : S1x4096.Idx → EReal) (ix2 (0 : Fin 1) s) = m ((c : Thread nD τ).loc main_arg4) (ix1 s) := by
  have e : @Eq (S1x4096.Idx → EReal) (V m c main_v18)
      (shapeCast S1x4096 (m ((c : Thread nD τ).loc main_arg4)) shapeCasts_S4096_S1x4096) := by
    dsimp only [V, hostOps0]; after_results <;> rfl
  rw [e]
  exact shapeCast_apply _ shapeCasts_S4096_S1x4096 (ix2 (0 : Fin 1) s) (ix1 s) (by
    rw [Shape.rowMajor_val_one, Shape.rowMajor_val_two]
    show s.val = (0 : Fin 1).val * 4096 + s.val
    simp)

end Cert.SparseLinear

end
-- ==== Proof.KernelRun.lean ====
/-
  The kernel program's run, read.

  After the run the result array is the layer of the three arrays the region reads; those are X itself, the
  reference's transposed weight and the bias as a row.  So the kernel program ends with its result at the layer of
  its arguments: entry (r, s) is  (sum over k of X[r, k] * Wt[k, s]) + bias[s],  Wt the transposed scatter of the
  CSR triple, and its arguments unchanged.
-/
import proofs.«144302_j8856222564675_1_alg».proof.Proof.Blocks
import proofs.«144302_j8856222564675_1_alg».proof.Proof.Staged

noncomputable section

namespace Cert.SparseLinear

open Idealize.ShloMosaic Idealize.ShloMosaic.TcCoe Idealize.SL.Sem Idealize.ShloMosaic.ValueIdx
open Cert.KernelIdeal Cert.KernelIdeal.Gen

variable (m : (ℓ : Loc nD τ sig) → Buf (Elt Ideal) ℓ) (ρ : Dev nD → PrngReg)

/-- The layer as a function of the program's arguments on core c. -/
abbrev layerOf (c : Dev nD) : S16384x4096.Idx → EReal :=
  linear (m ((c : Thread nD τ).loc main_arg0))
    (Cert.ReferenceIdeal.Read.val_main_v15 (F := Ideal) (m ((c : Thread nD τ).loc main_arg1))
      (m ((c : Thread nD τ).loc main_arg2)) (m ((c : Thread nD τ).loc main_arg3)))
    (m ((c : Thread nD τ).loc main_arg4))

/-- The layer of equal pieces is the same layer. -/
theorem linear_congr {X X' : (⟨2, ![16384, 4096]⟩ : Shape).Idx → EReal} {Wt Wt' : (⟨2, ![4096, 4096]⟩ : Shape).Idx → EReal}
    {b b' : (⟨1, ![4096]⟩ : Shape).Idx → EReal} (hX : X = X') (hW : Wt = Wt') (hb : b = b') :
    linear X Wt b = linear X' Wt' b' := by
  subst hX hW hb; rfl

/-- The layer of the arrays the region reads is the layer of the arguments. -/
theorem staged_eq (c : Dev nD) : staged m c = layerOf m c :=
  linear_congr (staged_input m c) (staged_weight m c)
    (funext fun d => (staged_bias m c (d 0)).trans (congrArg (m ((c : Thread nD τ).loc main_arg4)) (eq_ix1 d).symm))

/-- Every weakly fair execution of the kernel program ends with its result at the layer of its arguments and its
    arguments unchanged. -/
theorem kernel_run : θ_run defs (onTc (τ := τ) (main (F := Ideal))) ⟨m, fun _ => 0, ρ⟩ fun r => ∀ c : Dev nD,
      r.2.mem ((c : Thread nD τ).loc main_v19) = layerOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((final_staged m c).trans (staged_eq m c)), (h c).2⟩)
    (Cert.KernelIdeal.Value.run_blocks m ρ)

end Cert.SparseLinear

end
-- ==== Proof.Reference.lean ====
/-
  The reference program computes the layer.

  Its result is the host's matrix product of X with the transposed dense weight, plus the bias vector repeated down
  the rows.  Entry (r, s) of the product is the sum over k of X[r, k] * Wt[k, s]; the repeated bias at (r, s) is
  bias[s].  That is the layer's entry (r, s), with Wt the reference's own transposed weight.
-/
import proofs.«144302_j8856222564675_1_alg».proof.Proof.Gen.ReferenceIdeal.Read
import proofs.«144302_j8856222564675_1_alg».proof.Proof.Spec
import Idealize.ShloMosaic.Lib.ValueIdx

noncomputable section

namespace Cert.SparseLinear

open Idealize.ShloMosaic Idealize.ShloMosaic.ValueIdx Cert.ReferenceIdeal Cert.ReferenceIdeal.Read

/-- The reference's result, index by index, is the layer of X, the reference's transposed weight and the bias. -/
theorem reference_eq (x0 : (⟨S16384x4096, .f32⟩ : BufTy).Contents (Elt Ideal)) (x1 : (⟨S8387998, .f32⟩ : BufTy).Contents (Elt Ideal))
    (x2 x3 : (⟨S8387998, .i32⟩ : BufTy).Contents (Elt Ideal)) (x4 : (⟨S4096, .f32⟩ : BufTy).Contents (Elt Ideal)) :
    val_main_v19 (F := Ideal) x0 x1 x2 x3 x4 = linear x0 (val_main_v15 (F := Ideal) x1 x2 x3) x4 := by
  funext i
  obtain ⟨r, s, rfl⟩ : ∃ (r : Fin 16384) (s : Fin 4096), i = ix2 r s := ⟨i 0, i 1, eq_ix2 i⟩
  rw [linear_apply, val_main_v19_apply]
  show val_main_v16 (F := Ideal) x0 x1 x2 x3 (ix2 r s) + val_main_v18 (F := Ideal) x4 (ix2 r s) = _
  rw [val_main_v16_apply, val_main_v18_apply, val_main_v17_apply]
  have el : ∀ k : Fin 4096, lidx_main_v16 (ix2 r s) k = ix2 r k := fun k => funext fun a => by
    match a with
    | ⟨0, _⟩ => rfl
    | ⟨1, _⟩ => rfl
  have er : ∀ k : Fin 4096, ridx_main_v16 (ix2 r s) k = ix2 k s := fun k => funext fun a => by
    match a with
    | ⟨0, _⟩ => rfl
    | ⟨1, _⟩ => rfl
  have eb : idx_main_v17 (idx_main_v18 (ix2 r s)) = ix1 s := funext fun a => by
    match a with
    | ⟨0, _⟩ => rfl
  rw [eb]
  refine congrArg (· + x4 (ix1 s)) (Finset.sum_congr rfl fun k _ => ?_)
  rw [el k, er k]

end Cert.SparseLinear

end
-- ==== Proof.lean ====
/-
  A sparse linear layer: the CSR triple (values, rows, cols) scattered into a dense 4096 x 4096 weight W, and
  Y = X · Wᵀ + bias  over X of 16384 tokens by 4096 features.

  The kernel program builds the transposed weight Wt on the host, narrows X and Wt to bf16, and computes the product
  on a 4 x 32 grid of 512 x 1024 tiles, each tile one matrix-unit product of a 512 x 4096 block of X with a
  4096 x 1024 block of Wt into a zero accumulator, plus the bias block repeated down the rows.  The reference program
  builds the same Wt the same way and takes one host product of X with it, plus the bias repeated down the rows.

  Over the extended reals a change of float format is the identity and both products are the plain sum over the
  contracted index, so both programs end with entry (r, s) of the result at

      (sum over k of X[r, k] * Wt[k, s]) + bias[s],

  one function (Spec's `linear`) of the arguments.  The weight never has to be opened: the two programs spell the
  same scatter and transpose, so it is one term on both sides.  No entry has to be finite: sums of extended reals
  do not depend on order or grouping, and nothing is cancelled or distributed.

  The kernel's side: Tile (a tile is a block of the layer), Staged (the three arrays the region reads), Blocks (the
  tiles cover the result), KernelRun (the run, read).  The reference's side: Reference.  The frames of the two
  kernel programs are the generated ones; the reference's frame is its run with the result dropped; the idealization
  rewrote no operation, so there is nothing to preserve.
-/
import proofs.«144302_j8856222564675_1_alg».proof.Defs
import proofs.«144302_j8856222564675_1_alg».proof.Proof.Gen.Kernel
import proofs.«144302_j8856222564675_1_alg».proof.Proof.Gen.Kernel.Skeleton
import proofs.«144302_j8856222564675_1_alg».proof.Proof.Gen.Kernel.Launch
import proofs.«144302_j8856222564675_1_alg».proof.Proof.Gen.Kernel.Points
import proofs.«144302_j8856222564675_1_alg».proof.Proof.Gen.Kernel.Frame
import proofs.«144302_j8856222564675_1_alg».proof.Proof.Gen.KernelIdeal
import proofs.«144302_j8856222564675_1_alg».proof.Proof.Gen.KernelIdeal.Skeleton
import proofs.«144302_j8856222564675_1_alg».proof.Proof.Gen.KernelIdeal.Launch
import proofs.«144302_j8856222564675_1_alg».proof.Proof.Gen.KernelIdeal.Points
import proofs.«144302_j8856222564675_1_alg».proof.Proof.Gen.KernelIdeal.Frame
import proofs.«144302_j8856222564675_1_alg».proof.Proof.Gen.ReferenceIdeal
import proofs.«144302_j8856222564675_1_alg».proof.Proof.Gen.Pre_finite_inputs
import proofs.«144302_j8856222564675_1_alg».proof.Proof.Gen.KernelIdeal.Value
import proofs.«144302_j8856222564675_1_alg».proof.Proof.Gen.ReferenceIdeal.Run
import proofs.«144302_j8856222564675_1_alg».proof.Proof.Gen.ReferenceIdeal.Read
import proofs.«144302_j8856222564675_1_alg».proof.Proof.KernelRun
import proofs.«144302_j8856222564675_1_alg».proof.Proof.Reference
import Idealize.ShloMosaic.Adequacy
import Idealize.ShloMosaic.Init

noncomputable section

namespace Cert.Proof

open Idealize.ShloMosaic Idealize.ShloMosaic.TcCoe Idealize.SL.Sem

/-- The word-level kernel program runs and leaves its arguments as they were. -/
theorem frame_kernel : Cert.frame_Kernel := fun m ρ _ => Cert.Kernel.Gen.frame m ρ

/-- So does the kernel program read over the extended reals. -/
theorem frame_kernelIdeal : Cert.frame_KernelIdeal := fun m ρ _ => Cert.KernelIdeal.Gen.frame m ρ

/-- So does the reference program: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From arguments that agree, the kernel program ends with its result at the layer of its arguments, and the
    reference program with its result at its last stage, which is the layer of the same arguments. -/
theorem algebraic : Cert.algebraic_KernelIdeal_ReferenceIdeal := by
  intro m ρ m' ρ' _ hagree
  refine ⟨fun c => Cert.SparseLinear.layerOf m c, Cert.SparseLinear.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.SparseLinear.reference_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
